-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x64 : Shape := ⟨2, ![1024, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x1024 .f32) (main_arg1 : FVec F S1024x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16384x1024 : Shape := ⟨2, ![16384, 1024]⟩
abbrev S1024x64 : Shape := ⟨2, ![1024, 64]⟩
abbrev S16384 : Shape := ⟨1, ![16384]⟩
abbrev S2048x1024 : Shape := ⟨2, ![2048, 1024]⟩
abbrev S2048 : Shape := ⟨1, ![2048]⟩
abbrev S2048x64 : Shape := ⟨2, ![2048, 64]⟩
abbrev S16384x1 : Shape := ⟨2, ![16384, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384, .f32⟩
  | .hbm, ⟨3, _⟩ => ⟨S16384x1, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S2048, .f32⟩
  | .local _ .vmem, ⟨4, _⟩ => ⟨S2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S2048x64_S2048 : S2048x64.Reduces [1] S2048
  inb_S2048_S2048_0 : ∀ a, (![0] : Fin 1 → Nat) a + S2048.size a ≤ S2048.size a
  h_S2048 : 0 < S2048.numel
  shapeCasts_S16384_S16384x1 : S16384.ShapeCasts S16384x1
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S16384x1024, .f32⟩
  | .hbm, ⟨5, _⟩ => ⟨S1024x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x1024_S1024x64_S16384x64_1_0_0_1_n_n_wf : DotDims.WF S16384x1024 S1024x64 S16384x64 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.CrossSpec.lean ====
/-
  The second-order interaction term of a factorization machine, as ONE function of its two argument arrays.

  For a row `r` of the feature array `x` (R rows of 1024 features) and the factor table `v` (1024 × 64),
      cross r = ½ · Σ_{k<64} ( (Σ_j x[r,j]·v[j,k])² − Σ_j x[r,j]²·v[j,k]² ),
  the "square of the sum minus the sum of the squares" over the 64 latent factors. Everything is read on the
  extended reals, and the two programs compared in this certificate evaluate exactly this expression tree
  (the same products, the same two contractions over the 1024 features, the same difference, the same sum
  over the factors, the same leading ½), so no algebraic law and no finiteness of the inputs is needed: the
  definitions below are only NAMES for the common tree, generic in the number of rows so that they can be read
  both on a block of 2048 rows and on the whole array of 16384 rows.
-/
import Idealize.ShloMosaic.PureOps.Ideal
import Idealize.ShloMosaic.Lib.ValueIdx

noncomputable section

namespace Cert.CrossSpec

open Idealize.ShloMosaic Idealize.ShloMosaic.ValueIdx

/-- The linear term: `(x · v)[r, k] = Σ_j x[r,j] · v[j,k]`. -/
def proj {R : Nat} (x : (⟨2, ![R, 1024]⟩ : Shape).Idx → EReal) (v : (⟨2, ![1024, 64]⟩ : Shape).Idx → EReal)
    (r : Fin R) (k : Fin 64) : EReal :=
  ∑ j : Fin 1024, x (ix2 r j) * v (ix2 j k)

/-- The quadratic term: `(x² · v²)[r, k] = Σ_j x[r,j]² · v[j,k]²`, the squares taken entry by entry. -/
def sqProj {R : Nat} (x : (⟨2, ![R, 1024]⟩ : Shape).Idx → EReal) (v : (⟨2, ![1024, 64]⟩ : Shape).Idx → EReal)
    (r : Fin R) (k : Fin 64) : EReal :=
  ∑ j : Fin 1024, (x (ix2 r j) * x (ix2 r j)) * (v (ix2 j k) * v (ix2 j k))

/-- The factor `½`, kept as the binary word both programs print for it. -/
def half : EReal := Ideal.ofBits .f32 0x3F000000#32

/-- The interaction term of row `r`. -/
def rowCross {R : Nat} (x : (⟨2, ![R, 1024]⟩ : Shape).Idx → EReal) (v : (⟨2, ![1024, 64]⟩ : Shape).Idx → EReal)
    (r : Fin R) : EReal :=
  half * ∑ k : Fin 64, (proj x v r k * proj x v r k - sqProj x v r k)

/-- All rows, as a vector of length `R`. -/
def crossRows {R : Nat} (x : (⟨2, ![R, 1024]⟩ : Shape).Idx → EReal) (v : (⟨2, ![1024, 64]⟩ : Shape).Idx → EReal) :
    (⟨1, ![R]⟩ : Shape).Idx → EReal :=
  fun i => rowCross x v (i 0)

/-- All rows, as a column `R × 1` (the shape both programs return). -/
def crossCol {R : Nat} (x : (⟨2, ![R, 1024]⟩ : Shape).Idx → EReal) (v : (⟨2, ![1024, 64]⟩ : Shape).Idx → EReal) :
    (⟨2, ![R, 1]⟩ : Shape).Idx → EReal :=
  fun i => rowCross x v (i 0)

/-- The interaction term of a row only depends on that row of `x` (and on the factor table): if a block `xb` of `B` rows
    agrees at its row `p` with row `r` of the array `x`, and the two factor tables agree entry by entry, the two terms
    are equal. -/
theorem rowCross_congr {B R : Nat} (xb : (⟨2, ![B, 1024]⟩ : Shape).Idx → EReal) (x : (⟨2, ![R, 1024]⟩ : Shape).Idx → EReal)
    (vb v : (⟨2, ![1024, 64]⟩ : Shape).Idx → EReal) (p : Fin B) (r : Fin R)
    (hx : ∀ j : Fin 1024, xb (ix2 p j) = x (ix2 r j)) (hv : ∀ (j : Fin 1024) (k : Fin 64), vb (ix2 j k) = v (ix2 j k)) :
    rowCross xb vb p = rowCross x v r := by
  unfold rowCross proj sqProj
  simp only [hx, hv]

end Cert.CrossSpec

end
-- ==== Proof.KernelPoint.lean ====
/-
  What the kernel body stores at one row of a block.

  At a grid point the body holds a block `xb` of 2048 rows of `x` and the whole factor table `vb`. On the extended
  reals the narrowing of the operands before the two matrix products changes nothing, each product into a zero
  accumulator is the plain contraction over the 1024 features, and the lane reduction is the plain sum over the 64
  factors; so the value stored for row `p` of the block is `rowCross xb vb p`:
      ½ · Σ_k ( (Σ_j xb[p,j]·vb[j,k])² − Σ_j xb[p,j]²·vb[j,k]² ).
-/
import proofs.«143161_j18056042513139_1_alg».proof.Proof.Gen.KernelIdeal.Skeleton
import proofs.«143161_j18056042513139_1_alg».proof.Proof.CrossSpec
import Idealize.ShloMosaic.PureOps.Ideal.Laws
import Idealize.ShloMosaic.Lib.ValueIdx

noncomputable section

namespace Cert.KernelIdeal.CrossPoint

open Cert.KernelIdeal Cert.KernelIdeal.Gen Cert.CrossSpec
open Idealize.ShloMosaic Idealize.ShloMosaic.ValueIdx

/-! ## The operand indices of the block's matrix product -/

theorem lhs_dot_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs_dot_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs_dot_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs_dot_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A block's matrix product into a zero accumulator, at row `p` and factor `k`: the contraction over the features. -/
theorem blockDot_apply {φ₁ φ₂ : FTy} (a : FVec Ideal S2048x1024 φ₁) (b : FVec Ideal S1024x64 φ₂) (p : Fin 2048) (k : Fin 64) :
    matmul dot_S2048x1024_S1024x64_S2048x64_1_0_0_1_n_n none a b (constant S2048x64 .f32 0x00000000#32) (ix2 p k)
      = ∑ j : Fin 1024, a (ix2 p j) * b (ix2 j k) := by
  simp only [matmul]
  rw [Ideal.matmul_constant_zero_apply, ← Equiv.sum_comp (contrEquiv1 dot_S2048x1024_S1024x64_S2048x64_1_0_0_1_n_n 1024 rfl rfl).symm]
  refine Finset.sum_congr rfl fun j _ => ?_
  have hk := contrEquiv1_symm_val dot_S2048x1024_S1024x64_S2048x64_1_0_0_1_n_n 1024 rfl rfl j
  have el : dot_S2048x1024_S1024x64_S2048x64_1_0_0_1_n_n.lhsIdx (ix2 p k) ((contrEquiv1 dot_S2048x1024_S1024x64_S2048x64_1_0_0_1_n_n 1024 rfl rfl).symm j) = ix2 p j := funext fun a => Fin.ext (by
    match a with
    | ⟨0, _⟩ => exact lhs_dot_0 _ _
    | ⟨1, _⟩ => exact (lhs_dot_1 _ _).trans hk)
  have er : dot_S2048x1024_S1024x64_S2048x64_1_0_0_1_n_n.rhsIdx (ix2 p k) ((contrEquiv1 dot_S2048x1024_S1024x64_S2048x64_1_0_0_1_n_n 1024 rfl rfl).symm j) = ix2 j k := funext fun a => Fin.ext (by
    match a with
    | ⟨0, _⟩ => exact (rhs_dot_0 _ _).trans hk
    | ⟨1, _⟩ => exact rhs_dot_1 _ _)
  rw [el, er]

/-- The lane reduction of a 2048 × 64 block, at row `p`: the sum over the 64 factors. -/
theorem laneSum_apply (src : FVec Ideal S2048x64 .f32) (p : Fin 2048) :
    multiReduction .add [1] S2048 src 0x00000000#32 reduces_S2048x64_S2048 (.inl rfl) rfl (ix1 p)
      = ∑ k : Fin 64, src (ix2 p k) := by
  refine (Ideal.multiReduction_add_single src 0x00000000#32 reduces_S2048x64_S2048 (.inl rfl) rfl (ix1 p)).trans ?_
  refine Finset.sum_congr rfl fun k _ => ?_
  exact congrArg src (funext fun a => Fin.ext (by match a with | ⟨0, _⟩ => rfl | ⟨1, _⟩ => rfl))

/-- THE STORED VALUE at row `p` of the block is the interaction term of that row of the block. -/
theorem pay_apply (xb : Vec Ideal S2048x1024 .f32) (vb : Vec Ideal S1024x64 .f32) (p : Fin 2048) :
    k0_pay1 (F := Ideal) xb vb (ix1 p) = rowCross (R := 2048) xb vb p := by
  unfold k0_pay1
  dsimp only
  rw [mulf_apply, broadcast_apply]
  unfold rowCross half
  refine congrArg (Ideal.ofBits .f32 0x3F000000#32 * ·) ?_
  refine (laneSum_apply _ p).trans ?_
  refine Finset.sum_congr rfl fun k _ => ?_
  rw [subf_apply, mulf_apply, blockDot_apply, blockDot_apply]
  unfold proj sqProj
  rfl

end Cert.KernelIdeal.CrossPoint

end
-- ==== Proof.KernelArray.lean ====
/-
  From blocks to the array, and through the final reshape.

  The grid has 8 points; point `t` holds rows 2048·t … 2048·t + 2047 of `x` and the whole factor table, and writes
  back the 2048 interaction terms of those rows as block `t` of a vector of length 16384. The 8 blocks tile the
  vector, so after the run it holds the interaction term of every row; the reshape that follows lays the same
  numbers out as a 16384 × 1 column.
-/
import proofs.«143161_j18056042513139_1_alg».proof.Proof.Gen.KernelIdeal.Frame
import proofs.«143161_j18056042513139_1_alg».proof.Proof.KernelPoint
import Idealize.ShloMosaic.Lib.Pipeline.Value
import Idealize.ShloMosaic.Lib.StableHlo.Run

set_option maxRecDepth 16384

noncomputable section

namespace Cert.KernelIdeal.CrossArray

open Cert.KernelIdeal Cert.KernelIdeal.Gen Cert.CrossSpec Cert.KernelIdeal.CrossPoint
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem off1 : (![0] : Fin 1 → Nat) = fun _ => 0 := funext fun a => by fin_cases a <;> rfl
theorem off2 : (![0, 0] : Fin 2 → Nat) = fun _ => 0 := funext fun a => by fin_cases a <;> rfl

/-- Where the blocks sit: the block of `x` moves with the output block along the rows and spans all features; the
    factor table is always the one whole block; the output block index is the grid point, below 8. -/
theorem block_positions : ∀ t : Fin cfg0.N, win0_0.index t (0 : Fin 2) = win0_2.index t (0 : Fin 1)
    ∧ win0_0.index t (1 : Fin 2) = 0
    ∧ win0_1.index t (0 : Fin 2) = 0
    ∧ win0_1.index t (1 : Fin 2) = 0
    ∧ win0_2.index t (0 : Fin 1) ≤ 7 :=
  (by decide +kernel : ∀ t : Fin grid0.N, _)

/-- Every one of the 8 output blocks is some point's. -/
theorem block_onto : ∀ q : Fin 8, ∃ t : Fin cfg0.N, win0_2.index t = ![q.val] :=
  (by decide +kernel : ∀ q : Fin 8, ∃ t : Fin grid0.N, win0_2.index t = ![q.val])

/-- What point `t` writes back is block `t` of the vector of all rows' interaction terms. -/
theorem flushed_eq (c : Dev nD) (t : Fin cfg0.N) :
    (dats m 0 c).flushed 2 t
      = ((cfg0.win 2).blk t).view.read (Elt Ideal) (crossRows (R := 16384) (V m c main_arg0) (V m c main_arg1)) := by
  show (cfg0.win 2).cut (grid0.coords t) ((dats m 0 c).after 2 t) = _
  rw [after0_2]
  unfold out0_2
  rw [View.canon_unit_zero off1]
  simp only [View.ld_unit_zero (S := S2048x1024) off2, View.ld_unit_zero (S := S1024x64) off2]
  obtain ⟨e0, e1, e2, e3, e4⟩ := block_positions t
  funext y
  obtain ⟨p, rfl⟩ : ∃ p : Fin 2048, y = ix1 p := ⟨y 0, eq_ix1 y⟩
  show k0_pay1 (F := Ideal) (iblk m c 0 t) (iblk m c 1 t) (ix1 p)
    = rowCross (R := 16384) (V m c main_arg0) (V m c main_arg1) ((((cfg0.win 2).blk t).view.emb (ix1 p)) 0)
  refine (pay_apply (iblk m c 0 t) (iblk m c 1 t) p).trans ?_
  refine rowCross_congr (B := 2048) (R := 16384) (iblk m c 0 t) (V m c main_arg0) (iblk m c 1 t) (V m c main_arg1) p _ ?_ ?_
  · intro j
    show V m c main_arg0 (((cfg0.win 0).blk t).view.emb (ix2 p j)) = V m c main_arg0 (ix2 ((((cfg0.win 2).blk t).view.emb (ix1 p)) 0) j)
    refine congrArg (V m c main_arg0) (funext fun a => Fin.ext ?_)
    match a with
    | ⟨0, _⟩ => show win0_0.index t (0 : Fin 2) * 2048 + 1 * p.val = win0_2.index t (0 : Fin 1) * 2048 + 1 * p.val; omega
    | ⟨1, _⟩ => show win0_0.index t (1 : Fin 2) * 1024 + 1 * j.val = j.val; omega
  · intro j k
    show V m c main_arg1 (((cfg0.win 1).blk t).view.emb (ix2 j k)) = V m c main_arg1 (ix2 j k)
    refine congrArg (V m c main_arg1) (funext fun a => Fin.ext ?_)
    match a with
    | ⟨0, _⟩ => show win0_1.index t (0 : Fin 2) * 1024 + 1 * j.val = j.val; omega
    | ⟨1, _⟩ => show win0_1.index t (1 : Fin 2) * 64 + 1 * k.val = k.val; omega

/-- An index of the vector is in point `t`'s block iff it lies in that block's range of 2048 rows. -/
theorem mem_blk (t : Fin cfg0.N) (i : S16384.Idx) :
    i ∈ ((cfg0.win 2).blk t).view.set ↔ ∀ a : Fin 1, win0_2.index t a * S2048.size a ≤ (i a).val ∧ (i a).val < win0_2.index t a * S2048.size a + S2048.size a := by
  show i ∈ ((View.whole main_v0).slice (win0_2.rect t)).set ↔ _
  rw [View.set_slice_whole, Rect.mem_set_unit]
  exact Iff.rfl

/-- The blocks tile the vector: row `r` is in the block of point `r / 2048`. -/
theorem covered (i : S16384.Idx) :
    ∃ t : Fin cfg0.N, (cfg0.win 2).flush t = true ∧ i ∈ ((cfg0.win 2).blk t).view.set := by
  have hi : (i 0).val < 16384 := (i 0).isLt
  obtain ⟨t, ht⟩ := block_onto ⟨(i 0).val / 2048, by omega⟩
  have q0 : win0_2.index t (0 : Fin 1) = (i 0).val / 2048 := congrFun ht 0
  refine ⟨t, flush0_2 t, ?_⟩
  rw [mem_blk]
  intro a
  match a with
  | ⟨0, _⟩ => show win0_2.index t (0 : Fin 1) * 2048 ≤ (i 0).val ∧ (i 0).val < win0_2.index t (0 : Fin 1) * 2048 + 2048; omega

/-- The vector after the run: every row's interaction term. -/
theorem final_rows (c : Dev nD) :
    (dats m 0 c).arrAt 2 cfg0.N
      = crossRows (R := 16384) (m ((c : Thread nD τ).loc main_arg0)) (m ((c : Thread nD τ).loc main_arg1)) :=
  (dats m 0 c).arrAt_eq_of_cover 2 _ (fun t _ => flushed_eq m c t) covered

/-- The column the program returns: the reshape of that vector. -/
theorem tail_col (c : Dev nD) :
    Pipeline.afterTail₀ cfgs (dats m) 0 (V0 m) [hostOps1] c main_v1
      = crossCol (R := 16384) (m ((c : Thread nD τ).loc main_arg0)) (m ((c : Thread nD τ).loc main_arg1)) := by
  unfold Pipeline.afterTail₀
  show StableHlo.after hostOps1 _ (Proc.devRef .tc main_v1) = _
  after_results
  funext i
  show shapeCast S16384x1 (Pipeline.withArrays spec0 c (V0 m c) (fun w => (dats m 0 c).arrAt w cfg0.N)
      (Proc.devRef .tc (Pipeline.arrRef spec0 2))) shapeCasts_S16384_S16384x1 i = _
  rw [Pipeline.withArrays_arr spec0 launch0.win.arr_inj c _ _ 2, final_rows]
  have h1 : (i 1).val < 1 := (i 1).isLt
  refine (shapeCast_apply _ shapeCasts_S16384_S16384x1 i (ix1 (i 0)) ?_).trans rfl
  rw [Shape.rowMajor_val_one, Shape.rowMajor_val_two]
  show (i 0).val = (i 0).val * 1 + (i 1).val
  omega

/-- The whole program, read: every weakly fair execution terminates with the returned column holding every row's
    interaction term of the two arguments, and the arguments unchanged. -/
theorem run : θ_run defs (onTc (τ := τ) (main (F := Ideal))) ⟨m, fun _ => 0, ρ⟩ fun r => ∀ c : Dev nD,
      r.2.mem ((c.tc : Thread nD τ).loc main_v1)
        = crossCol (R := 16384) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 (by decide)).trans (tail_col m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.CrossArray

end
-- ==== Proof.RefCross.lean ====
/-
  The reference's result is the interaction term, row by row.

  Read one operation at a time, the reference computes at the output index (r, 0):
  the leading ½ (a scalar broadcast) times the row sum over the 64 factors — a host sum, so it starts from its
  initial value 0 — of (x·v)[r,k]·(x·v)[r,k] − ((x∘x)·(v∘v))[r,k], the two products being contractions over
  the 1024 features. That is `rowCross x v r` once the initial 0 is dropped and every operand index the
  operations compose is recognised as the plain pair of coordinates it is.
-/
import proofs.«143161_j18056042513139_1_alg».proof.Proof.Gen.ReferenceIdeal.Read
import proofs.«143161_j18056042513139_1_alg».proof.Proof.CrossSpec

noncomputable section

namespace Cert.ReferenceIdeal.CrossRef

open Cert.ReferenceIdeal Cert.ReferenceIdeal.Read Cert.CrossSpec
open Idealize.ShloMosaic Idealize.ShloMosaic.ValueIdx

/-- The (x·v) entry the reference reads for output row `i 0` and factor `k` pairs row `i 0` of `x` with feature `j`. -/
theorem lidx_v0_eq (i : S16384x1.Idx) (k : Fin 64) (j : Fin 1024) :
    lidx_main_v0 (idx_main_v6 (idx_main_v7 i) k) j = ix2 (i 0) j :=
  funext fun a => Fin.ext (by match a with | ⟨0, _⟩ => rfl | ⟨1, _⟩ => rfl)

/-- … and feature `j` of `v` with factor `k`. -/
theorem ridx_v0_eq (i : S16384x1.Idx) (k : Fin 64) (j : Fin 1024) :
    ridx_main_v0 (idx_main_v6 (idx_main_v7 i) k) j = ix2 j k :=
  funext fun a => Fin.ext (by match a with | ⟨0, _⟩ => rfl | ⟨1, _⟩ => rfl)

/-- The same two facts for the contraction of the squared arrays. -/
theorem lidx_v4_eq (i : S16384x1.Idx) (k : Fin 64) (j : Fin 1024) :
    lidx_main_v4 (idx_main_v6 (idx_main_v7 i) k) j = ix2 (i 0) j :=
  funext fun a => Fin.ext (by match a with | ⟨0, _⟩ => rfl | ⟨1, _⟩ => rfl)

theorem ridx_v4_eq (i : S16384x1.Idx) (k : Fin 64) (j : Fin 1024) :
    ridx_main_v4 (idx_main_v6 (idx_main_v7 i) k) j = ix2 j k :=
  funext fun a => Fin.ext (by match a with | ⟨0, _⟩ => rfl | ⟨1, _⟩ => rfl)

/-- The reference's last stage, as a function of the two arguments, is the column of interaction terms. -/
theorem ref_eq (x : (⟨S16384x1024, .f32⟩ : BufTy).Contents (Elt Ideal)) (v : (⟨S1024x64, .f32⟩ : BufTy).Contents (Elt Ideal)) :
    val_main_v9 (F := Ideal) x v = crossCol (R := 16384) x v := by
  funext i
  rw [val_main_v9_apply, val_main_v8_apply, val_main_cst_0_apply, val_main_v7_apply, val_main_v6_apply, val_main_cst_apply]
  show Ideal.ofBits .f32 0x3F000000#32 * (Ideal.ofBits .f32 0x00000000#32 + _) = _
  rw [Ideal.ofBits_zero_f32, zero_add]
  unfold crossCol rowCross half
  refine congrArg (Ideal.ofBits .f32 0x3F000000#32 * ·) (Finset.sum_congr rfl fun k _ => ?_)
  rw [val_main_v5_apply, val_main_v1_apply, val_main_v0_apply, val_main_v4_apply]
  unfold proj sqProj
  simp only [val_main_v2_apply, val_main_v3_apply, lidx_v0_eq, ridx_v0_eq, lidx_v4_eq, ridx_v4_eq]
  rfl

end Cert.ReferenceIdeal.CrossRef

end
-- ==== Proof.lean ====
/-
  The second-order interaction term of a factorization machine: a tiled kernel against its plain reference.

  Both programs take the feature array `x` (16384 × 1024) and the factor table `v` (1024 × 64) and return the column
      out[r, 0] = ½ · Σ_{k<64} ( (Σ_j x[r,j]·v[j,k])² − Σ_j x[r,j]²·v[j,k]² ).
  The kernel walks the rows in 8 blocks of 2048, holds the whole factor table beside each block, narrows its operands
  before the two matrix products (the identity on the extended reals), writes the 2048 terms of a block into a
  vector of length 16384, and reshapes that vector to a column. The reference computes the two matrix products of the
  whole arrays, their difference, the row sum from an initial 0, and the product with a broadcast ½.
  On the extended reals the two are the SAME expression tree at every row (Proof/CrossSpec.lean names it `rowCross`),
  so the value claim needs no algebraic law and never opens the finiteness of the inputs:
    · Proof/KernelPoint.lean: the value the kernel body stores for one row of a block is `rowCross` of the block;
    · Proof/KernelArray.lean: a block's row is the array's row, the 8 blocks tile the vector, the reshape keeps the
      row-major order — the kernel returns the column `crossCol x v`;
    · Proof/RefCross.lean: the reference's last stage, read one operation at a time, is `crossCol x v`.
  The three termination-and-frame claims are the generated frame runs (the reference's is its run with the result
  dropped); the idealization rewrote no operation of the kernel, so there is nothing for `preserves` to state.
-/
import proofs.«143161_j18056042513139_1_alg».proof.Defs
import proofs.«143161_j18056042513139_1_alg».proof.Proof.Gen.Kernel
import proofs.«143161_j18056042513139_1_alg».proof.Proof.Gen.Kernel.Skeleton
import proofs.«143161_j18056042513139_1_alg».proof.Proof.Gen.Kernel.Launch
import proofs.«143161_j18056042513139_1_alg».proof.Proof.Gen.Kernel.Points
import proofs.«143161_j18056042513139_1_alg».proof.Proof.Gen.Kernel.Frame
import proofs.«143161_j18056042513139_1_alg».proof.Proof.Gen.KernelIdeal
import proofs.«143161_j18056042513139_1_alg».proof.Proof.Gen.KernelIdeal.Skeleton
import proofs.«143161_j18056042513139_1_alg».proof.Proof.Gen.KernelIdeal.Launch
import proofs.«143161_j18056042513139_1_alg».proof.Proof.Gen.KernelIdeal.Points
import proofs.«143161_j18056042513139_1_alg».proof.Proof.Gen.KernelIdeal.Frame
import proofs.«143161_j18056042513139_1_alg».proof.Proof.Gen.ReferenceIdeal
import proofs.«143161_j18056042513139_1_alg».proof.Proof.Gen.ReferenceIdeal.Run
import proofs.«143161_j18056042513139_1_alg».proof.Proof.Gen.ReferenceIdeal.Read
import proofs.«143161_j18056042513139_1_alg».proof.Proof.Gen.Pre_finite_inputs
import Idealize.ShloMosaic.Adequacy
import Idealize.ShloMosaic.Init
import proofs.«143161_j18056042513139_1_alg».proof.Proof.CrossSpec
import proofs.«143161_j18056042513139_1_alg».proof.Proof.KernelPoint
import proofs.«143161_j18056042513139_1_alg».proof.Proof.KernelArray
import proofs.«143161_j18056042513139_1_alg».proof.Proof.RefCross

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `v`, both programs end with the column of interaction terms of those arrays. -/
theorem algebraic : Cert.algebraic_KernelIdeal_ReferenceIdeal := by
  intro m ρ m' ρ' _ hagree
  refine ⟨_, Cert.KernelIdeal.CrossArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.CrossRef.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
